-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 27
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x1, .f32⟩
  | .hbm, ⟨25, _⟩ => ⟨S1x64, .f32⟩
  | .hbm, ⟨26, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_1_0_0_n_n_wf : DotDims.WF S5000x64 S64x64 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x64, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.MeanLinear.lean ====
/-
  The function both programs compute, as one expression of five arrays over the extended reals.
  For n nodes with d features each and e output features: from the summed neighbour features nb (n x d), the nodes'
  own features x (n x d), the in-degrees deg (n), a weight matrix W (e x d) and a bias b (e),
      out (i, j) = ( sum over k of ((nb (i, k) + x (i, k)) / (deg i + 1)) * W (j, k) ) + b j :
  the mean over a node and its in-neighbours, then a linear layer whose weight rows are contracted against the
  feature axis. The divisor's 1 is kept as the value of the word both programs print for it.
-/
import Idealize.ShloMosaic.Lib.ValueIdx

noncomputable section

namespace Cert.MeanLinear

open Idealize.ShloMosaic Idealize.ShloMosaic.ValueIdx

/-- The mean of a node's own and its in-neighbours' features at (i, k): their sum over the in-degree plus one. -/
def mean (nb x : (⟨2, ![100000, 64]⟩ : Shape).Idx → EReal) (deg : (⟨1, ![100000]⟩ : Shape).Idx → EReal)
    (i : Fin 100000) (k : Fin 64) : EReal :=
  Ideal.div (nb (ix2 i k) + x (ix2 i k)) (deg (ix1 i) + Ideal.ofBits .f32 0x3F800000#32)

/-- The mean followed by the linear layer: at (i, j) the mean's row i against the weight's row j, plus the bias at j. -/
def out (nb x : (⟨2, ![100000, 64]⟩ : Shape).Idx → EReal) (deg : (⟨1, ![100000]⟩ : Shape).Idx → EReal)
    (W : (⟨2, ![64, 64]⟩ : Shape).Idx → EReal) (b : (⟨1, ![64]⟩ : Shape).Idx → EReal) :
    (⟨2, ![100000, 64]⟩ : Shape).Idx → EReal :=
  fun i => (∑ k : Fin 64, mean nb x deg (i 0) k * W (ix2 (i 1) k)) + b (ix1 (i 1))

theorem out_apply (nb x : (⟨2, ![100000, 64]⟩ : Shape).Idx → EReal) (deg : (⟨1, ![100000]⟩ : Shape).Idx → EReal)
    (W : (⟨2, ![64, 64]⟩ : Shape).Idx → EReal) (b : (⟨1, ![64]⟩ : Shape).Idx → EReal) (r : Fin 100000) (c : Fin 64) :
    out nb x deg W b (ix2 r c) = (∑ k : Fin 64, mean nb x deg r k * W (ix2 c k)) + b (ix1 c) := rfl

end Cert.MeanLinear

end
-- ==== Proof.RefMeanLinear.lean ====
/-
  The reference computes the mean-then-linear function. Its last stage, read one operation at a time, is at (r, c)
  the sum over k of its quotient at (r, k) times the transposed weight at (k, c), plus the bias spread over the rows;
  the quotient at (r, k) is the sum of the scattered neighbour features and the node's own over the in-degree plus
  one, the in-degree vector first spread to a column and then over the feature axis; and the transposed weight at
  (k, c) is the weight at (c, k). The gather and the two scatter-adds that build the neighbour sums and the
  in-degrees are carried as they stand: the kernel's program applies the same ones.
-/
import proofs.«144348_j72619307041226_1_alg».proof.Proof.Gen.ReferenceIdeal.Read
import proofs.«144348_j72619307041226_1_alg».proof.Proof.MeanLinear

noncomputable section

namespace Cert.ReferenceIdeal.RefValue

open Cert.ReferenceIdeal Cert.ReferenceIdeal.Read Idealize.ShloMosaic Idealize.ShloMosaic.ValueIdx

/-- The reference's quotient at (r, k) is the mean of node r's own and in-neighbour features at feature k. -/
theorem quotient_apply (x0 : (⟨S100000x64, .f32⟩ : BufTy).Contents (Elt Ideal)) (x1 x2 : (⟨S1600000, .i32⟩ : BufTy).Contents (Elt Ideal))
    (r : Fin 100000) (k : Fin 64) :
    val_main_v19 (F := Ideal) x0 x1 x2 (ix2 r k)
      = Cert.MeanLinear.mean (val_main_v9 (F := Ideal) x0 x1 x2) x0 (val_main_v13 (F := Ideal) x2) r k := by
  have e : idx_main_v17 (idx_main_v18 (ix2 r k)) = ix1 r :=
    funext fun a => Fin.ext (by match a with | ⟨0, _⟩ => rfl)
  rw [val_main_v19_apply, val_main_v14_apply, val_main_v18_apply, val_main_v17_apply, val_main_v16_apply,
    val_main_v15_apply, val_main_cst_3_apply, e]
  rfl

/-- The reference's result is the mean-then-linear function of the scattered neighbour sums, the features, the
    in-degrees, the weight and the bias. -/
theorem result_eq (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    val_main_v24 (F := Ideal) x0 x1 x2 x3 x4
      = Cert.MeanLinear.out (val_main_v9 (F := Ideal) x0 x1 x2) x0 (val_main_v13 (F := Ideal) x2) x3 x4 := by
  funext i
  obtain ⟨r, c, rfl⟩ : ∃ (r : Fin 100000) (c : Fin 64), i = ix2 r c := ⟨i 0, i 1, eq_ix2 i⟩
  have hl : ∀ k : Fin 64, lidx_main_v21 (ix2 r c) k = ix2 r k := fun k =>
    funext fun a => Fin.ext (by match a with | ⟨0, _⟩ => rfl | ⟨1, _⟩ => rfl)
  have hr : ∀ k : Fin 64, idx_main_v20 (ridx_main_v21 (ix2 r c) k) = ix2 c k := fun k =>
    funext fun a => Fin.ext (by match a with | ⟨0, _⟩ => rfl | ⟨1, _⟩ => rfl)
  have hb : idx_main_v22 (idx_main_v23 (ix2 r c)) = ix1 c :=
    funext fun a => Fin.ext (by match a with | ⟨0, _⟩ => rfl)
  rw [val_main_v24_apply, val_main_v21_apply, val_main_v23_apply, val_main_v22_apply, hb, Cert.MeanLinear.out_apply]
  refine congrArg (· + x4 (ix1 c)) (Finset.sum_congr rfl fun k _ => ?_)
  rw [hl k, val_main_v20_apply, hr k, quotient_apply]

end Cert.ReferenceIdeal.RefValue

end
-- ==== Proof.LibRowsDot.lean ====
/-
  A contraction of the rows of one matrix with the rows of another: an M x K left operand and an N x K right
  operand, both contracted on their LAST axis, no batch axis. At the extended reals the matrix unit's product into a
  zero accumulator is, at (r, c), the sum over the inner index k of the left entry (r, k) times the right entry
  (c, k): the left matrix times the transpose of the right one, the transpose never formed.
  Beside it the two layout readings that meet such a product when a per-row scalar is kept as a one-column array:
  a vector recast as one column, and one column spread over the columns of a wider array.
-/
import Idealize.ShloMosaic.Lib.ValueIdx
import Idealize.ShloMosaic.Lib.ValueLayout
import Idealize.ShloMosaic.PureOps.Ideal.Laws

noncomputable section

namespace Cert.RowsDot

open Idealize.ShloMosaic Idealize.ShloMosaic.ValueIdx

variable {M K N : Nat}

/-- The left operand is read on its row axis at the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand is read on its inner axis at the contraction index. -/
theorem lhs_inner (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand is read on its row axis at the output's COLUMN. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand is read on its inner axis at the contraction index. -/
theorem rhs_inner (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum re-indexed by the inner coordinate: both operands are read along their rows. -/
theorem sum_contr (A : (⟨2, ![M, K]⟩ : Shape).Idx → EReal) (B : (⟨2, ![N, K]⟩ : Shape).Idx → EReal)
    (j : (⟨2, ![M, N]⟩ : Shape).Idx) :
    (∑ q : (DotDims.transposedRhs M K N).contr.Idx,
        A ((DotDims.transposedRhs M K N).lhsIdx j q) * B ((DotDims.transposedRhs M K N).rhsIdx j q))
      = ∑ k : Fin K, A (ix2 (j 0) k) * B (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact (lhs_inner _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact (rhs_inner _ _).trans hk)
  exact congrArg₂ (· * ·) (congrArg A el) (congrArg B er)

/-- The matrix unit's product into the zero accumulator, at an output index: the sum over the inner index of the
    left row's entry times the right row's entry. -/
theorem matmul_zero_apply {φ₁ φ₂ : FTy} (prec : Option ContractPrecision)
    (A : FVec Ideal (⟨2, ![M, K]⟩ : Shape) φ₁) (B : FVec Ideal (⟨2, ![N, K]⟩ : Shape) φ₂) (j : (⟨2, ![M, N]⟩ : Shape).Idx) :
    FloatOps.matmul (DotDims.transposedRhs M K N) prec A B (constant (⟨2, ![M, N]⟩ : Shape) .f32 0x00000000#32) j
      = ∑ k : Fin K, A (ix2 (j 0) k) * B (ix2 (j 1) k) :=
  (Ideal.matmul_constant_zero_apply (DotDims.transposedRhs M K N) prec A B j).trans (sum_contr A B j)

/-! ## A per-row scalar kept as one column -/

variable {α : Type}

/-- A vector of length a recast as an a x 1 array reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 array spread over the columns of an a x b array reads, at (p, c), the one column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.RowsDot

end
-- ==== Proof.KernelTile.lean ====
/-
  One tile of the kernel. The body stores, for a tile of 5000 rows, the contraction of the rows of
  (nb + x) / (deg + 1) with the rows of the weight, plus the bias row: its operands' changes of float format are the
  identity over the extended reals, the matrix unit's product into the zero accumulator is the plain sum over the
  feature index (the contraction record is the rows-against-rows one), the in-degree column is spread over the
  features and the bias row over the tile's rows. So when the loaded blocks are rows T * 5000 ... of the arrays,
  the stored tile is the mean-then-linear function at those rows.
-/
import proofs.«144348_j72619307041226_1_alg».proof.Proof.Gen.KernelIdeal.Skeleton
import proofs.«144348_j72619307041226_1_alg».proof.Proof.LibRowsDot
import proofs.«144348_j72619307041226_1_alg».proof.Proof.MeanLinear

noncomputable section

namespace Cert.KernelIdeal.Tile

open Cert.KernelIdeal Cert.KernelIdeal.Gen Idealize.ShloMosaic Idealize.ShloMosaic.ValueIdx

/-- The printed contraction contracts both operands on their last axis. -/
theorem dot_eq : dot_S5000x64_S64x64_S5000x64_1_1_0_0_n_n = DotDims.transposedRhs 5000 64 64 := rfl

/-- The stored value at (p, q) of a tile, from the loaded blocks. -/
theorem pay_apply (v0 v2 : FVec Ideal S5000x64 .f32) (v4 : FVec Ideal S5000x1 .f32) (v11 : FVec Ideal S64x64 .f32)
    (v14 : FVec Ideal S1x64 .f32) (p : Fin 5000) (q : Fin 64) :
    k0_pay1 (F := Ideal) v0 v2 v4 v11 v14 (ix2 p q)
      = (∑ k : Fin 64, Ideal.div (v0 (ix2 p k) + v2 (ix2 p k)) (v4 (ix2 p (0 : Fin 1)) + Ideal.ofBits .f32 0x3F800000#32)
            * v11 (ix2 q k)) + v14 (ix2 (0 : Fin 1) q) := by
  unfold k0_pay1
  simp only [shapeCast_self]
  refine (addf_apply _ _ _).trans ?_
  rw [broadcastTo_1b_ab_apply]
  refine congrArg (· + v14 (ix2 (0 : Fin 1) q)) ?_
  rw [dot_eq]
  refine (Cert.RowsDot.matmul_zero_apply none _ _ (ix2 p q)).trans ?_
  refine Finset.sum_congr rfl fun k _ => ?_
  show Ideal.div (v0 (ix2 p k) + v2 (ix2 p k))
      (broadcastTo S5000x64 (addf v4 (broadcast S5000x1 (FloatOps.ofBits .f32 0x3F800000#32))) broadcasts_S5000x1_S5000x64 (ix2 p k))
      * v11 (ix2 q k) = _
  rw [Cert.RowsDot.broadcastTo_a1_ab_apply]
  rfl

/-- Row p of tile T is row T * 5000 + p of the arrays. -/
def rowAt (T : Fin 20) (p : Fin 5000) : Fin 100000 :=
  ⟨T.val * 5000 + p.val, by have := T.isLt; have := p.isLt; omega⟩

theorem rowAt_val (T : Fin 20) (p : Fin 5000) : (rowAt T p).val = T.val * 5000 + p.val := rfl

/-- A tile whose blocks are rows T * 5000 ... of the neighbour sums, the features and the in-degree column, the
    whole weight and the bias row, is the mean-then-linear function at those rows. -/
theorem tile_eq (nb x : (⟨2, ![100000, 64]⟩ : Shape).Idx → EReal) (deg : (⟨1, ![100000]⟩ : Shape).Idx → EReal)
    (W : (⟨2, ![64, 64]⟩ : Shape).Idx → EReal) (b : (⟨1, ![64]⟩ : Shape).Idx → EReal)
    (v0 v2 : FVec Ideal S5000x64 .f32) (v4 : FVec Ideal S5000x1 .f32) (v11 : FVec Ideal S64x64 .f32) (v14 : FVec Ideal S1x64 .f32)
    (T : Fin 20)
    (h0 : ∀ (p : Fin 5000) (k : Fin 64), v0 (ix2 p k) = nb (ix2 (rowAt T p) k))
    (h2 : ∀ (p : Fin 5000) (k : Fin 64), v2 (ix2 p k) = x (ix2 (rowAt T p) k))
    (h4 : ∀ p : Fin 5000, v4 (ix2 p (0 : Fin 1)) = deg (ix1 (rowAt T p)))
    (h11 : ∀ q k : Fin 64, v11 (ix2 q k) = W (ix2 q k))
    (h14 : ∀ q : Fin 64, v14 (ix2 (0 : Fin 1) q) = b (ix1 q))
    (j : S5000x64.Idx) (p : Fin 5000) (q : Fin 64) (hj : j = ix2 p q) :
    k0_pay1 (F := Ideal) v0 v2 v4 v11 v14 j = Cert.MeanLinear.out nb x deg W b (ix2 (rowAt T p) q) := by
  subst hj
  rw [pay_apply, Cert.MeanLinear.out_apply, h14]
  refine congrArg (· + b (ix1 q)) (Finset.sum_congr rfl fun k _ => ?_)
  rw [h0, h2, h4, h11]
  rfl

end Cert.KernelIdeal.Tile

end
-- ==== Proof.KernelHost.lean ====
/-
  What the kernel's one region finds in the three operands the host operations before it wrote. The neighbour sums
  are the scatter-add, at the destination indices, of the features gathered at the source indices (a negative source
  index first wrapped by the number of nodes) into a zero array; the in-degrees the scatter-add of ones at the
  destination indices into a zero vector, then recast as one column; the bias recast as one row. The gather and the
  two scatter-adds are named and left as they stand: the reference applies the same ones to the same arguments.
-/
import proofs.«144348_j72619307041226_1_alg».proof.Proof.Gen.KernelIdeal.Frame
import proofs.«144348_j72619307041226_1_alg».proof.Proof.LibRowsDot

noncomputable section

namespace Cert.KernelIdeal.HostSide

open Cert.KernelIdeal Cert.KernelIdeal.Gen Idealize.ShloMosaic Idealize.ShloMosaic.TcCoe Idealize.ShloMosaic.ValueIdx Idealize.SL.Sem

variable {F : FTy → Type} [FloatOps F]

/-- The neighbour sums: features gathered at the (wrapped) source indices, scatter-added at the destination indices. -/
def nbSum (x0 : (⟨S100000x64, .f32⟩ : BufTy).Contents (Elt F)) (x1 x2 : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 x2)
    (Host.gather gather_S100000x64_S1600000x1_S1600000x64_1_0_n_n_0_1_164 x0
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- The in-degrees: ones scatter-added at the destination indices. -/
def inDeg (x2 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 x2)
    (broadcastInDim S1600000 ![] bcast_S_S1600000 (constant S_ .f32 0x3F800000#32))

variable (m : (ℓ : Loc nD τ sig) → Buf (Elt F) ℓ)

/-- The region's first operand holds the neighbour sums of the arguments. -/
theorem V_nb (c : Dev nD) :
    V m c main_v9 = nbSum (m ((c : Thread nD τ).loc main_arg0)) (m ((c : Thread nD τ).loc main_arg1)) (m ((c : Thread nD τ).loc main_arg2)) := by
  dsimp only [V, hostOps0]
  after_results
  rfl

/-- Its third operand holds the in-degrees recast as one column. -/
theorem V_degCol (c : Dev nD) :
    V m c main_v14 = shapeCast S100000x1 (inDeg (m ((c : Thread nD τ).loc main_arg2))) shapeCasts_S100000_S100000x1 := by
  dsimp only [V, hostOps0]
  after_results
  rfl

/-- Its fifth operand holds the bias recast as one row. -/
theorem V_biasRow (c : Dev nD) :
    V m c main_v15 = shapeCast S1x64 (m ((c : Thread nD τ).loc main_arg4)) shapeCasts_S64_S1x64 := by
  dsimp only [V, hostOps0]
  after_results
  rfl

/-- A one-column array read down its column, and a one-row array read along its row. -/
def colOf {α : Type} (d : (⟨2, ![100000, 1]⟩ : Shape).Idx → α) : (⟨1, ![100000]⟩ : Shape).Idx → α :=
  fun i => d (ix2 (i 0) (0 : Fin 1))
def rowOf {α : Type} (b : (⟨2, ![1, 64]⟩ : Shape).Idx → α) : (⟨1, ![64]⟩ : Shape).Idx → α :=
  fun i => b (ix2 (0 : Fin 1) (i 0))

/-- The in-degree column read down is the in-degree vector. -/
theorem colOf_degCol (c : Dev nD) : colOf (V m c main_v14) = inDeg (m ((c : Thread nD τ).loc main_arg2)) := by
  rw [V_degCol]
  funext i
  obtain ⟨r, rfl⟩ : ∃ r : Fin 100000, i = ix1 r := ⟨i 0, eq_ix1 i⟩
  exact Cert.RowsDot.shapeCast_a_a1_apply _ _ r 0

/-- The bias row read along is the bias. -/
theorem rowOf_biasRow (c : Dev nD) : rowOf (V m c main_v15) = m ((c : Thread nD τ).loc main_arg4) := by
  rw [V_biasRow]
  funext i
  obtain ⟨q, rfl⟩ : ∃ q : Fin 64, i = ix1 q := ⟨i 0, eq_ix1 i⟩
  exact shapeCast_a_1a_apply _ _ 0 q

end Cert.KernelIdeal.HostSide

end
-- ==== Proof.KernelWhole.lean ====
/-
  From tiles to the array. The grid has 20 points; at point t every row-tiled operand (the neighbour sums, the
  features, the in-degree column) and the output are at block row t, the weight and the bias row at block 0. So
  what point t writes back is rows t * 5000 ... t * 5000 + 4999 of the mean-then-linear function of the arrays as the
  region finds them, row r of the array lies in the tile of point r / 5000, and the output array ends holding that
  function whole; the arrays the host wrote are then read as the neighbour sums, the in-degrees and the bias.
-/
import proofs.«144348_j72619307041226_1_alg».proof.Proof.Gen.KernelIdeal.Value
import proofs.«144348_j72619307041226_1_alg».proof.Proof.KernelTile
import proofs.«144348_j72619307041226_1_alg».proof.Proof.KernelHost

set_option maxRecDepth 16384

noncomputable section

namespace Cert.KernelIdeal.Whole

open Cert.KernelIdeal Cert.KernelIdeal.Gen Cert.KernelIdeal.Tile Cert.KernelIdeal.HostSide
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-tiled windows sit at block row t, the whole ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Tile t, for ANY arrays in the windows' places: the body's stored value over the windows' blocks at point t is
    block t of the mean-then-linear function of those arrays, the in-degree column read down and the bias row read
    along. (The arrays are arbitrary: nothing is assumed of how their contents were produced.) -/
theorem tile_read (t : Fin cfg0.N) (nb x : S100000x64.Idx → EReal) (dcol : S100000x1.Idx → EReal)
    (W : S64x64.Idx → EReal) (brow : S1x64.Idx → EReal)
    (v0 v2 : FVec Ideal S5000x64 .f32) (v4 : FVec Ideal S5000x1 .f32) (v11 : FVec Ideal S64x64 .f32) (v14 : FVec Ideal S1x64 .f32)
    (h0 : v0 = ((cfg0.win 0).blk t).view.read (Elt Ideal) nb) (h2 : v2 = ((cfg0.win 1).blk t).view.read (Elt Ideal) x)
    (h4 : v4 = ((cfg0.win 2).blk t).view.read (Elt Ideal) dcol) (h11 : v11 = ((cfg0.win 3).blk t).view.read (Elt Ideal) W)
    (h14 : v14 = ((cfg0.win 4).blk t).view.read (Elt Ideal) brow) :
    (cfg0.win 5).cut (grid0.coords t) (k0_pay1 (F := Ideal) v0 v2 v4 v11 v14)
      = ((cfg0.win 5).blk t).view.read (Elt Ideal) (Cert.MeanLinear.out nb x (colOf dcol) W (rowOf brow)) := by
  subst h0 h2 h4 h11 h14
  obtain ⟨e00, e01, e10, e11, e20, e21, e30, e31, e40, e41, e50, e51⟩ := idx_facts t
  have hN : cfg0.N = 20 := N_0
  funext j
  show k0_pay1 (F := Ideal) (((cfg0.win 0).blk t).view.read (Elt Ideal) nb) (((cfg0.win 1).blk t).view.read (Elt Ideal) x)
      (((cfg0.win 2).blk t).view.read (Elt Ideal) dcol) (((cfg0.win 3).blk t).view.read (Elt Ideal) W)
      (((cfg0.win 4).blk t).view.read (Elt Ideal) brow) j
    = Cert.MeanLinear.out nb x (colOf dcol) W (rowOf brow) (((cfg0.win 5).blk t).view.emb j)
  have hemb : ((cfg0.win 5).blk t).view.emb j
      = ix2 (rowAt (t.cast hN) ⟨(j 0).val, (j 0).isLt⟩) (⟨(j 1).val, (j 1).isLt⟩ : Fin 64) := by
    funext a; apply Fin.ext
    match a with
    | ⟨0, _⟩ => show win0_5.index t (0 : Fin 2) * 5000 + 1 * (j 0).val = t.val * 5000 + (j 0).val; omega
    | ⟨1, _⟩ => show win0_5.index t (1 : Fin 2) * 64 + 1 * (j 1).val = (j 1).val; omega
  rw [hemb]
  refine tile_eq nb x (colOf dcol) W (rowOf brow) _ _ _ _ _ (t.cast hN)
    (fun p k => ?_) (fun p k => ?_) (fun p => ?_) (fun q k => ?_) (fun q => ?_) j _ _
    (funext fun a => Fin.ext (by match a with | ⟨0, _⟩ => rfl | ⟨1, _⟩ => rfl))
  · show nb (((cfg0.win 0).blk t).view.emb (ix2 p k)) = nb (ix2 (rowAt (t.cast hN) p) k)
    refine congrArg nb (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show x (((cfg0.win 1).blk t).view.emb (ix2 p k)) = x (ix2 (rowAt (t.cast hN) p) k)
    refine congrArg x (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  · show dcol (((cfg0.win 2).blk t).view.emb (ix2 p (0 : Fin 1))) = dcol (ix2 (rowAt (t.cast hN) p) (0 : Fin 1))
    refine congrArg dcol (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · show W (((cfg0.win 3).blk t).view.emb (ix2 q k)) = W (ix2 q k)
    refine congrArg W (funext fun a => Fin.ext ?_)
    match a with
    | ⟨0, _⟩ => show win0_3.index t (0 : Fin 2) * 64 + 1 * q.val = q.val; omega
    | ⟨1, _⟩ => show win0_3.index t (1 : Fin 2) * 64 + 1 * k.val = k.val; omega
  · show brow (((cfg0.win 4).blk t).view.emb (ix2 (0 : Fin 1) q)) = brow (ix2 (0 : Fin 1) q)
    refine congrArg brow (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega

/-- What the output array ends holding, over the arrays as the region finds them. -/
def result (c : Dev nD) : S100000x64.Idx → EReal :=
  Cert.MeanLinear.out (V m c main_v9) (V m c main_arg0) (colOf (V m c main_v14)) (V m c main_arg3) (rowOf (V m c main_v15))

/-- What point t writes back is tile t of the result: the windows' blocks are the region-entry arrays read through
    the windows, so the tile lemma applies to them as they stand. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz]
  simp only [View.ld_unit_zero (S := S5000x64) hz, View.ld_unit_zero (S := S5000x1) hz, View.ld_unit_zero (S := S64x64) hz,
    View.ld_unit_zero (S := S1x64) hz]
  exact tile_read t (V m c main_v9) (V m c main_arg0) (V m c main_v14) (V m c main_arg3) (V m c main_v15)
    (iblk m c 0 t) (iblk m c 1 t) (iblk m c 2 t) (iblk m c 3 t) (iblk m c 4 t) rfl rfl rfl rfl rfl

/-- An index of the output array is in point t's tile iff each coordinate is in the tile's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v16).slice (win0_5.rect t)).set ↔ _
  rw [View.set_slice_whole, Rect.mem_set_unit]
  exact Iff.rfl

/-- Row r of the output lies in the tile of point r / 5000, which writes back. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The output array after the run is the result, whole. -/
theorem final (c : Dev nD) : (dats m 0 c).arrAt 5 cfg0.N = result m c :=
  (dats m 0 c).arrAt_eq_of_cover 5 (result m c) (fun t _ => flushed_eq m c t) cover

/-- The result over the arguments: the host-written operands read as neighbour sums, in-degrees and bias. -/
theorem result_args (c : Dev nD) :
    result m c = Cert.MeanLinear.out
      (nbSum (m ((c : Thread nD τ).loc main_arg0)) (m ((c : Thread nD τ).loc main_arg1)) (m ((c : Thread nD τ).loc main_arg2)))
      (m ((c : Thread nD τ).loc main_arg0)) (inDeg (m ((c : Thread nD τ).loc main_arg2)))
      (m ((c : Thread nD τ).loc main_arg3)) (m ((c : Thread nD τ).loc main_arg4)) := by
  unfold result
  rw [V_nb, V_main_arg0, colOf_degCol, V_main_arg3, rowOf_biasRow]

/-- The kernel's run with its result named: the mean-then-linear function of the arguments, the arguments unchanged. -/
theorem run : θ_run defs (onTc (τ := τ) (main (F := Ideal))) ⟨m, fun _ => 0, ρ⟩ fun r => ∀ c : Dev nD,
      r.2.mem ((c : Thread nD τ).loc main_v16) = Cert.MeanLinear.out
        (nbSum (m ((c : Thread nD τ).loc main_arg0)) (m ((c : Thread nD τ).loc main_arg1)) (m ((c : Thread nD τ).loc main_arg2)))
        (m ((c : Thread nD τ).loc main_arg0)) (inDeg (m ((c : Thread nD τ).loc main_arg2)))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (result_args m c)), (h c).2⟩)
    (Cert.KernelIdeal.Value.run_blocks m ρ)

end Cert.KernelIdeal.Whole

end
-- ==== Proof.SharedHead.lean ====
/-
  The two programs build the neighbour sums and the in-degrees with the same host operations on the same arguments:
  one gather at the wrapped source indices and one scatter-add at the destination indices for the sums, one
  scatter-add of ones for the degrees. Each program prints its own copy of the operations' dimension records and
  shape facts; the copies have the same fields, so the two terms are one.
-/
import proofs.«144348_j72619307041226_1_alg».proof.Proof.KernelHost
import proofs.«144348_j72619307041226_1_alg».proof.Proof.Gen.ReferenceIdeal.Read

noncomputable section

namespace Cert.Proof.SharedHead

open Idealize.ShloMosaic

/-- The kernel program's neighbour sums are the reference's. -/
theorem nb_eq (x0 : (⟨Cert.KernelIdeal.S100000x64, .f32⟩ : BufTy).Contents (Elt Ideal))
    (x1 x2 : (⟨Cert.KernelIdeal.S1600000, .i32⟩ : BufTy).Contents (Elt Ideal)) :
    Cert.KernelIdeal.HostSide.nbSum (F := Ideal) x0 x1 x2 = Cert.ReferenceIdeal.Read.val_main_v9 (F := Ideal) x0 x1 x2 := rfl

/-- The kernel program's in-degrees are the reference's. -/
theorem deg_eq (x2 : (⟨Cert.KernelIdeal.S1600000, .i32⟩ : BufTy).Contents (Elt Ideal)) :
    Cert.KernelIdeal.HostSide.inDeg (F := Ideal) x2 = Cert.ReferenceIdeal.Read.val_main_v13 (F := Ideal) x2 := rfl

end Cert.Proof.SharedHead

end
-- ==== Proof.lean ====
/- GraphSAGE message passing with the mean ('gcn') aggregator followed by a linear layer, for 100000 nodes with 64
   features and 1600000 edges: out = ((nb + x) / (deg + 1)) W^T + b, where nb sums over each node's in-edges the
   features of the edge's source and deg counts the in-edges.
   Both programs build nb and deg with the same gather and scatter-adds on the host. The kernel then works on 20
   tiles of 5000 rows: it forms the quotient, contracts its rows with the rows of W on the matrix unit (its operands
   recast to a narrower float format, which over the extended reals changes nothing) and adds the bias row; the
   reference divides the whole array, transposes W, takes one matrix product and adds the bias spread over the rows.
   Over the extended reals both are, at (i, j), the sum over k of ((nb (i, k) + x (i, k)) / (deg i + 1)) * W (j, k),
   plus b j: the same terms in the same grouping, so no law of arithmetic beyond re-indexing the sum is used and the
   inputs' finiteness is not needed. The three frames are the generated ones; the idealization rewrote nothing. -/
import proofs.«144348_j72619307041226_1_alg».proof.Defs
import proofs.«144348_j72619307041226_1_alg».proof.Proof.Gen.Kernel
import proofs.«144348_j72619307041226_1_alg».proof.Proof.Gen.Kernel.Skeleton
import proofs.«144348_j72619307041226_1_alg».proof.Proof.Gen.Kernel.Launch
import proofs.«144348_j72619307041226_1_alg».proof.Proof.Gen.Kernel.Points
import proofs.«144348_j72619307041226_1_alg».proof.Proof.Gen.Kernel.Frame
import proofs.«144348_j72619307041226_1_alg».proof.Proof.Gen.KernelIdeal
import proofs.«144348_j72619307041226_1_alg».proof.Proof.Gen.KernelIdeal.Skeleton
import proofs.«144348_j72619307041226_1_alg».proof.Proof.Gen.KernelIdeal.Launch
import proofs.«144348_j72619307041226_1_alg».proof.Proof.Gen.KernelIdeal.Points
import proofs.«144348_j72619307041226_1_alg».proof.Proof.Gen.KernelIdeal.Frame
import proofs.«144348_j72619307041226_1_alg».proof.Proof.Gen.ReferenceIdeal
import proofs.«144348_j72619307041226_1_alg».proof.Proof.Gen.Pre_finite_inputs
import proofs.«144348_j72619307041226_1_alg».proof.Proof.Gen.KernelIdeal.Value
import proofs.«144348_j72619307041226_1_alg».proof.Proof.Gen.ReferenceIdeal.Run
import proofs.«144348_j72619307041226_1_alg».proof.Proof.Gen.ReferenceIdeal.Read
import proofs.«144348_j72619307041226_1_alg».proof.Proof.RefMeanLinear
import proofs.«144348_j72619307041226_1_alg».proof.Proof.KernelWhole
import proofs.«144348_j72619307041226_1_alg».proof.Proof.SharedHead
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the mean-then-linear function of the shared neighbour sums and in-degrees and of the
    arguments, which agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2.1, (hagree c).2.2.2.2,
    ← Cert.Proof.SharedHead.nb_eq, ← Cert.Proof.SharedHead.deg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
